-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x384x384 : Shape := ⟨4, ![64, 3, 384, 384]⟩
abbrev S64x24x24 : Shape := ⟨3, ![64, 24, 24]⟩
abbrev S_ : Shape := ⟨0, ![]⟩

class Facts : Prop where
  bcast_S_S64x3x384x384 : S_.BroadcastsInDim S64x3x384x384 (![] : Fin 0 → Fin S64x3x384x384.rank)
  reducesTo_S64x3x384x384_S_d0_1_2_3 : S64x3x384x384.ReducesTo [0, 1, 2, 3] S_
  h_S_ : 0 < S_.numel
  bcast_S_S64x24x24 : S_.BroadcastsInDim S64x24x24 (![] : Fin 0 → Fin S64x24x24.rank)
  reducesTo_S64x24x24_S_d0_1_2 : S64x24x24.ReducesTo [0, 1, 2] S_

variable [Facts]

def fn {F : FTy → Type} [FloatOps F] (main_arg0 : FVec F S64x3x384x384 .f32) (main_arg1 : FVec F S64x24x24 .f32) : IVec S_ 1 :=
  let main_v0 : FVec F S64x3x384x384 .f32 := Host.absf main_arg0
  let main_cst : FVec F S_ .f32 := constant S_ .f32 0x7F800000#32
  let main_v1 : FVec F S64x3x384x384 .f32 := broadcastInDim S64x3x384x384 ![] bcast_S_S64x3x384x384 main_cst
  let main_v2 : IVec S64x3x384x384 1 := cmpf .olt main_v0 main_v1
  let main_c : IVec S_ 1 := constantI S_ 1 1#1
  let main_v3 : IVec S_ 1 := (fun x v => Host.reduce IntOp.andi x v reducesTo_S64x3x384x384_S_d0_1_2_3 h_S_) main_v2 main_c
  let main_v4 : FVec F S64x24x24 .f32 := Host.absf main_arg1
  let main_cst_0 : FVec F S_ .f32 := constant S_ .f32 0x7F800000#32
  let main_v5 : FVec F S64x24x24 .f32 := broadcastInDim S64x24x24 ![] bcast_S_S64x24x24 main_cst_0
  let main_v6 : IVec S64x24x24 1 := cmpf .olt main_v4 main_v5
  let main_c_1 : IVec S_ 1 := constantI S_ 1 1#1
  let main_v7 : IVec S_ 1 := (fun x v => Host.reduce IntOp.andi x v reducesTo_S64x24x24_S_d0_1_2 h_S_) main_v6 main_c_1
  let main_v8 : IVec S_ 1 := andi main_v3 main_v7
  main_v8
-- ==== Kernel.lean ====
abbrev S64x3x384x384 : Shape := ⟨4, ![64, 3, 384, 384]⟩
abbrev S64x24x24 : Shape := ⟨3, ![64, 24, 24]⟩
abbrev S384 : Shape := ⟨1, ![384]⟩
abbrev S_ : Shape := ⟨0, ![]⟩
abbrev S384x1 : Shape := ⟨2, ![384, 1]⟩
abbrev S24 : Shape := ⟨1, ![24]⟩
abbrev S1x24 : Shape := ⟨2, ![1, 24]⟩
abbrev S384x24 : Shape := ⟨2, ![384, 24]⟩
abbrev S1x3x384x384 : Shape := ⟨4, ![1, 3, 384, 384]⟩
abbrev S1x24x24 : Shape := ⟨3, ![1, 24, 24]⟩
abbrev S24x24 : Shape := ⟨2, ![24, 24]⟩
abbrev S384x384 : Shape := ⟨2, ![384, 384]⟩
abbrev S1x1x384x384 : Shape := ⟨4, ![1, 1, 384, 384]⟩

abbrev nBuf : Space → Nat
  | .hbm => 29
  | .vmem => 7
  | .smem => 0
  | _ => 0

abbrev bufTy : (tb : Table) → Fin (tcTables nBuf tb) → BufTy
  | .hbm, ⟨0, _⟩ => ⟨S64x3x384x384, .f32⟩
  | .hbm, ⟨1, _⟩ => ⟨S64x24x24, .f32⟩
  | .hbm, ⟨2, _⟩ => ⟨S384, .i32⟩
  | .hbm, ⟨3, _⟩ => ⟨S_, .i32⟩
  | .hbm, ⟨4, _⟩ => ⟨S_, .i32⟩
  | .hbm, ⟨5, _⟩ => ⟨S384, .i32⟩
  | .hbm, ⟨6, _⟩ => ⟨S384, .i32⟩
  | .hbm, ⟨7, _⟩ => ⟨S384, .i32⟩
  | .hbm, ⟨8, _⟩ => ⟨S_, .i32⟩
  | .hbm, ⟨9, _⟩ => ⟨S384, .i32⟩
  | .hbm, ⟨10, _⟩ => ⟨S384, .i1⟩
  | .hbm, ⟨11, _⟩ => ⟨S384, .i32⟩
  | .hbm, ⟨12, _⟩ => ⟨S384, .i32⟩
  | .hbm, ⟨13, _⟩ => ⟨S_, .i32⟩
  | .hbm, ⟨14, _⟩ => ⟨S384, .i32⟩
  | .hbm, ⟨15, _⟩ => ⟨S384, .i1⟩
  | .hbm, ⟨16, _⟩ => ⟨S384, .i1⟩
  | .hbm, ⟨17, _⟩ => ⟨S_, .i32⟩
  | .hbm, ⟨18, _⟩ => ⟨S384, .i32⟩
  | .hbm, ⟨19, _⟩ => ⟨S384, .i32⟩
  | .hbm, ⟨20, _⟩ => ⟨S384, .i32⟩
  | .hbm, ⟨21, _⟩ => ⟨S384x1, .i32⟩
  | .hbm, ⟨22, _⟩ => ⟨S24, .i32⟩
  | .hbm, ⟨23, _⟩ => ⟨S1x24, .i32⟩
  | .hbm, ⟨24, _⟩ => ⟨S384x24, .i32⟩
  | .hbm, ⟨25, _⟩ => ⟨S384x24, .i32⟩
  | .hbm, ⟨26, _⟩ => ⟨S384x24, .i1⟩
  | .hbm, ⟨27, _⟩ => ⟨S384x24, .f32⟩
  | .hbm, ⟨28, _⟩ => ⟨S64x3x384x384, .f32⟩
  | .local _ .vmem, ⟨0, _⟩ => ⟨S1x3x384x384, .f32⟩
  | .local _ .vmem, ⟨1, _⟩ => ⟨S1x3x384x384, .f32⟩
  | .local _ .vmem, ⟨2, _⟩ => ⟨S1x24x24, .f32⟩
  | .local _ .vmem, ⟨3, _⟩ => ⟨S1x24x24, .f32⟩
  | .local _ .vmem, ⟨4, _⟩ => ⟨S384x24, .f32⟩
  | .local _ .vmem, ⟨5, _⟩ => ⟨S1x3x384x384, .f32⟩
  | .local _ .vmem, ⟨6, _⟩ => ⟨S1x3x384x384, .f32⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x24x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S384 : S_.BroadcastsInDim S384 (![] : Fin 0 → Fin S384.rank)
  bcast_S384_S384x1_0 : S384.BroadcastsInDim S384x1 (![0] : Fin 1 → Fin S384x1.rank)
  bcast_S24_S1x24_1 : S24.BroadcastsInDim S1x24 (![1] : Fin 1 → Fin S1x24.rank)
  bcast_S384x1_S384x24_0_1 : S384x1.BroadcastsInDim S384x24 (![0, 1] : Fin 2 → Fin S384x24.rank)
  bcast_S1x24_S384x24_0_1 : S1x24.BroadcastsInDim S384x24 (![0, 1] : Fin 2 → Fin S384x24.rank)
  inb_S1x24x24_S1x24x24_0_0_0 : ∀ a, (![0, 0, 0] : Fin 3 → Nat) a + S1x24x24.size a ≤ S1x24x24.size a
  h_S1x24x24 : 0 < S1x24x24.numel
  shapeCasts_S1x24x24_S24x24 : S1x24x24.ShapeCasts S24x24
  natLt_1_32 : 1 < 32
  bitsLt_bf16_f32 : FTy.bits .bf16 < FTy.bits .f32
  inb_S384x24_S384x24_0_0 : ∀ a, (![0, 0] : Fin 2 → Nat) a + S384x24.size a ≤ S384x24.size a
  h_S384x24 : 0 < S384x24.numel
  shapeCasts_S384x24_S384x24 : S384x24.ShapeCasts S384x24
  inb_S1x3x384x384_S1x3x384x384_0_0_0_0 : ∀ a, (![0, 0, 0, 0] : Fin 4 → Nat) a + S1x3x384x384.size a ≤ S1x3x384x384.size a
  h_S1x3x384x384 : 0 < S1x3x384x384.numel
  shapeCasts_S384x384_S1x1x384x384 : S384x384.ShapeCasts S1x1x384x384
  broadcasts_S1x1x384x384_S1x3x384x384 : S1x1x384x384.Broadcasts S1x3x384x384
  dot_S384x24_S24x24_S384x24_1_0_0_1_n_n_wf : DotDims.WF S384x24 S24x24 S384x24 [1] [0] [0] [1] [] []
  dot_S384x24_S384x24_S384x384_1_1_0_0_n_n_wf : DotDims.WF S384x24 S384x24 S384x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x384x384.size a ≤ S64x3x384x384.size a
  hwx0_0 : ∀ i : grid0.Coords, EltTy.bits .f32 = 32 ∨ (Rect.block (s := S64x3x384x384) S1x3x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x24.size a ≤ S64x24x24.size a
  hwx0_1 : ∀ i : grid0.Coords, EltTy.bits .f32 = 32 ∨ (Rect.block (s := S64x24x24) S1x24x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x24.size a ≤ S384x24.size a
  hwx0_2 : ∀ i : grid0.Coords, EltTy.bits .f32 = 32 ∨ (Rect.block (s := S384x24) S384x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x384x384.size a ≤ S64x3x384x384.size a
  hwx0_3 : ∀ i : grid0.Coords, EltTy.bits .f32 = 32 ∨ (Rect.block (s := S64x3x384x384) S1x3x384x384.size (cc0_transform_3 i) (hinb0_3 i)).WholeWords (EltTy.packing .f32)

variable [Facts₀]

def dot_S384x24_S24x24_S384x24_1_0_0_1_n_n : DotDims S384x24 S24x24 S384x24 where
  lhsContracting := [1]
  rhsContracting := [0]
  lhsNonContracting := [0]
  rhsNonContracting := [1]
  lhsBatch := []
  rhsBatch := []
  wf := dot_S384x24_S24x24_S384x24_1_0_0_1_n_n_wf
def dot_S384x24_S384x24_S384x384_1_1_0_0_n_n : DotDims S384x24 S384x24 S384x384 where
  lhsContracting := [1]
  rhsContracting := [1]
  lhsNonContracting := [0]
  rhsNonContracting := [0]
  lhsBatch := []
  rhsBatch := []
  wf := dot_S384x24_S384x24_S384x384_1_1_0_0_n_n_wf

abbrev win0_0 : Pipeline.Window sig grid0 :=
  Pipeline.Window.ofSpec (Memref.whole main_arg0) S1x3x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x24x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S384x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x3x384x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x384x384 : Shape := ⟨4, ![64, 3, 384, 384]⟩
abbrev S64x24x24 : Shape := ⟨3, ![64, 24, 24]⟩
abbrev S_ : Shape := ⟨0, ![]⟩
abbrev S64x1x24x1x24x1 : Shape := ⟨6, ![64, 1, 24, 1, 24, 1]⟩
abbrev S64x3x24x16x24x16 : Shape := ⟨6, ![64, 3, 24, 16, 24, 16]⟩

abbrev nBuf : Space → Nat
  | .hbm => 12
  | .vmem => 0
  | .smem => 0
  | _ => 0

abbrev bufTy : (tb : Table) → Fin (tcTables nBuf tb) → BufTy
  | .hbm, ⟨0, _⟩ => ⟨S64x3x384x384, .f32⟩
  | .hbm, ⟨1, _⟩ => ⟨S64x24x24, .f32⟩
  | .hbm, ⟨2, _⟩ => ⟨S_, .f32⟩
  | .hbm, ⟨3, _⟩ => ⟨S64x24x24, .f32⟩
  | .hbm, ⟨4, _⟩ => ⟨S64x24x24, .i1⟩
  | .hbm, ⟨5, _⟩ => ⟨S64x24x24, .f32⟩
  | .hbm, ⟨6, _⟩ => ⟨S64x24x24, .f32⟩
  | .hbm, ⟨7, _⟩ => ⟨S64x1x24x1x24x1, .f32⟩
  | .hbm, ⟨8, _⟩ => ⟨S64x3x24x16x24x16, .f32⟩
  | .hbm, ⟨9, _⟩ => ⟨S64x3x24x16x24x16, .f32⟩
  | .hbm, ⟨10, _⟩ => ⟨S64x3x24x16x24x16, .f32⟩
  | .hbm, ⟨11, _⟩ => ⟨S64x3x384x384, .f32⟩
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S64x24x24 : S_.BroadcastsInDim S64x24x24 (![] : Fin 0 → Fin S64x24x24.rank)
  transposes_S64x24x24_S64x24x24_0_2_1 : S64x24x24.Transposes [0, 2, 1] S64x24x24
  bcast_S64x24x24_S64x1x24x1x24x1_0_2_4 : S64x24x24.BroadcastsInDim S64x1x24x1x24x1 (![0, 2, 4] : Fin 3 → Fin S64x1x24x1x24x1.rank)
  shapeCasts_S64x3x384x384_S64x3x24x16x24x16 : S64x3x384x384.ShapeCasts S64x3x24x16x24x16
  bcast_S64x1x24x1x24x1_S64x3x24x16x24x16_0_1_2_3_4_5 : S64x1x24x1x24x1.BroadcastsInDim S64x3x24x16x24x16 (![0, 1, 2, 3, 4, 5] : Fin 6 → Fin S64x3x24x16x24x16.rank)
  shapeCasts_S64x3x24x16x24x16_S64x3x384x384 : S64x3x24x16x24x16.ShapeCasts S64x3x384x384

variable [Facts₀]

class Facts : Prop extends Facts₀ where

variable [Facts]
-- ==== Proof.Keep.lean ====
/-
  PATCH OCCLUSION, THE MATHEMATICS WITHOUT A PROGRAM.

  An image x[b, c, h, w] of 384 x 384 pixels is cut into 24 x 24 patches of 16 x 16 pixels; pixel row h lies in patch row
  h / 16 and pixel column w in patch column w / 16. A sample u[b, p, q] is drawn per patch and the patch is KEPT when the
  sample is at least a threshold: its keep flag is 1, otherwise 0. The occluded image is

      y[b, c, h, w] = x[b, c, h, w] * keep (u[b, w / 16, h / 16])

  (the sample array is indexed column patch first). This file states that function, the two ways a program turns the
  comparison's bit into the flag (an unsigned read of the bit; a signed read of the bit widened to a word), and the fact
  the matrix products of the kernel rest on: a 0/1 row that has its one in column a / 16 selects that column's entry,
  because on the extended reals 1 * z = z and 0 * z = 0 for every z, the infinities included.
-/
import Idealize.ShloMosaic.PureOps.Ideal
import Idealize.ShloMosaic.PureOps.Ideal.Laws
import Idealize.ShloMosaic.Lib.ValueIdx

noncomputable section

open scoped BigOperators

namespace Cert.Occlude

open Idealize.ShloMosaic Idealize.ShloMosaic.ValueIdx

/-- The patch a pixel row (or column) lies in. -/
def patch (a : Fin 384) : Fin 24 := ⟨a.val / 16, by have := a.isLt; omega⟩

@[simp] theorem patch_val (a : Fin 384) : (patch a).val = a.val / 16 := rfl

/-- The keep flag of a sample `u` against the threshold `θ`: one when `θ ≤ u`, zero otherwise. -/
def keep (θ u : EReal) : EReal := if θ ≤ u then 1 else 0

/-- The threshold: the float one half, as both programs spell it. -/
abbrev half : EReal := Ideal.ofBits .f32 0x3F000000#32

/-- The comparison's bit read unsigned is the keep flag. -/
theorem uitofp_oge (u θ : Ideal .f32) :
    FloatOps.uitofp (F := Ideal) .f32 (FloatOps.cmpf (F := Ideal) (φ := .f32) .oge u θ) = keep θ u := by
  show (((BitVec.ofBool (decide (θ ≤ u))).toNat : ℝ) : EReal) = _
  unfold keep
  by_cases h : θ ≤ u
  · rw [if_pos h, decide_eq_true h]; simp
  · rw [if_neg h, decide_eq_false h]; simp

/-- The comparison's bit widened to a word and read signed is the keep flag. -/
theorem sitofp_extui_oge (u θ : Ideal .f32) :
    FloatOps.sitofp (F := Ideal) .f32 ((FloatOps.cmpf (F := Ideal) (φ := .f32) .oge u θ).setWidth 32) = keep θ u := by
  show ((((BitVec.ofBool (decide (θ ≤ u))).setWidth 32).toInt : ℝ) : EReal) = _
  unfold keep
  by_cases h : θ ≤ u
  · rw [if_pos h, decide_eq_true h]
    have e : ((BitVec.ofBool true).setWidth 32).toInt = 1 := by decide
    rw [e]; simp
  · rw [if_neg h, decide_eq_false h]
    have e : ((BitVec.ofBool false).setWidth 32).toInt = 0 := by decide
    rw [e]; simp

/-- A 0/1 row with its one in column `a / 16` selects that column's entry of any row of extended reals. -/
theorem sum_patchRow_mul (a : Fin 384) (f : Fin 24 → EReal) :
    ∑ k : Fin 24, (if a.val / 16 = k.val then (1 : EReal) else 0) * f k = f (patch a) := by
  rw [Finset.sum_eq_single (patch a)]
  · rw [if_pos (patch_val a).symm, one_mul]
  · intro k _ hk
    have hne : ¬ a.val / 16 = k.val := fun h => hk (Fin.ext h.symm)
    rw [if_neg hne, zero_mul]
  · intro h; exact absurd (Finset.mem_univ _) h

/-- The occluded image as one function of the image and the samples. -/
def occluded (θ : EReal) (x : (⟨4, ![64, 3, 384, 384]⟩ : Shape).Idx → EReal) (u : (⟨3, ![64, 24, 24]⟩ : Shape).Idx → EReal) :
    (⟨4, ![64, 3, 384, 384]⟩ : Shape).Idx → EReal :=
  fun i => x i * keep θ (u (ix3 (i 0) (patch (i 3)) (patch (i 2))))

/-- The occluded image at the pixel of given coordinates. -/
theorem occluded_apply (θ : EReal) (x : (⟨4, ![64, 3, 384, 384]⟩ : Shape).Idx → EReal) (u : (⟨3, ![64, 24, 24]⟩ : Shape).Idx → EReal)
    (b : Fin 64) (c : Fin 3) (h w : Fin 384) :
    occluded θ x u (ix4 b c h w) = x (ix4 b c h w) * keep θ (u (ix3 b (patch w) (patch h))) := rfl

end Cert.Occlude

end
-- ==== Proof.Payload.lean ====
/-
  WHAT THE KERNEL BODY STORES, ENTRY BY ENTRY.

  At one grid point the body holds the image block x[0, c, h, w], the sample block u[0, p, q] and the selection matrix
  E (E[i, j] = 1 when i / 16 = j, else 0). It forms the keep flags K[p, q] of the samples, then two matrix products into
  zero accumulators,

      T[w, q] = sum over p of E[w, p] * K[p, q]            (= K[w / 16, q]),
      M[h, w] = sum over q of E[h, q] * T[w, q]            (= K[w / 16, h / 16]),

  and stores x[0, c, h, w] * M[h, w]. Each product is a sum over ONE contracted axis; a row of E has a single one, so
  each sum is the entry that one selects (the changes of float format in between are the identity on extended reals).
-/
import proofs.«179724_j64433099374846_1_alg».proof.Proof.Gen.KernelIdeal.Skeleton
import proofs.«179724_j64433099374846_1_alg».proof.Proof.Keep
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Occlude

open Cert.KernelIdeal Cert.KernelIdeal.Gen Idealize.ShloMosaic Idealize.ShloMosaic.ValueIdx

/-! ## The first product: [384, 24] by [24, 24], the columns of the left against the rows of the right -/

theorem lhs_first_0 (i : S384x24.Idx) (q : dot_S384x24_S24x24_S384x24_1_0_0_1_n_n.contr.Idx) :
    (dot_S384x24_S24x24_S384x24_1_0_0_1_n_n.lhsIdx i q 0).val = (i 0).val := by
  unfold DotDims.lhsIdx
  rw [dif_neg (show ¬(0 : Fin S384x24.rank) ∈ dot_S384x24_S24x24_S384x24_1_0_0_1_n_n.lhsBatch by decide),
    dif_pos (show (0 : Fin S384x24.rank) ∈ dot_S384x24_S24x24_S384x24_1_0_0_1_n_n.lhsNonContracting by decide)]
  rfl
theorem lhs_first_1 (i : S384x24.Idx) (q : dot_S384x24_S24x24_S384x24_1_0_0_1_n_n.contr.Idx) :
    (dot_S384x24_S24x24_S384x24_1_0_0_1_n_n.lhsIdx i q 1).val = (q ⟨0, by decide⟩).val :=
  dot_S384x24_S24x24_S384x24_1_0_0_1_n_n.lhsIdx_val_of_single rfl i q
theorem rhs_first_0 (i : S384x24.Idx) (q : dot_S384x24_S24x24_S384x24_1_0_0_1_n_n.contr.Idx) :
    (dot_S384x24_S24x24_S384x24_1_0_0_1_n_n.rhsIdx i q 0).val = (q ⟨0, by decide⟩).val :=
  dot_S384x24_S24x24_S384x24_1_0_0_1_n_n.rhsIdx_val_of_single rfl i q
theorem rhs_first_1 (i : S384x24.Idx) (q : dot_S384x24_S24x24_S384x24_1_0_0_1_n_n.contr.Idx) :
    (dot_S384x24_S24x24_S384x24_1_0_0_1_n_n.rhsIdx i q 1).val = (i 1).val := by
  unfold DotDims.rhsIdx
  rw [dif_neg (show ¬(1 : Fin S24x24.rank) ∈ dot_S384x24_S24x24_S384x24_1_0_0_1_n_n.rhsBatch by decide),
    dif_pos (show (1 : Fin S24x24.rank) ∈ dot_S384x24_S24x24_S384x24_1_0_0_1_n_n.rhsNonContracting by decide)]
  rfl

/-- Entry (w, q) of the first product: the sum over p of left (w, p) times right (p, q). -/
theorem first_product_apply (l : FVec Ideal S384x24 .bf16) (r : FVec Ideal S24x24 .bf16) (w : Fin 384) (q : Fin 24) :
    FloatOps.matmul dot_S384x24_S24x24_S384x24_1_0_0_1_n_n none l r (constant (F := Ideal) S384x24 .f32 0x00000000#32) (ix2 w q)
      = ∑ p : Fin 24, l (ix2 w p) * r (ix2 p q) := by
  rw [Ideal.matmul_constant_zero_apply, ← Equiv.sum_comp (contrEquiv1 dot_S384x24_S24x24_S384x24_1_0_0_1_n_n 24 rfl rfl).symm]
  refine Finset.sum_congr rfl fun k _ => ?_
  have hk := contrEquiv1_symm_val dot_S384x24_S24x24_S384x24_1_0_0_1_n_n 24 rfl rfl k
  have el : dot_S384x24_S24x24_S384x24_1_0_0_1_n_n.lhsIdx (ix2 w q) ((contrEquiv1 dot_S384x24_S24x24_S384x24_1_0_0_1_n_n 24 rfl rfl).symm k) = ix2 w k :=
    funext fun a => Fin.ext (by
      match a with
      | ⟨0, _⟩ => exact lhs_first_0 _ _
      | ⟨1, _⟩ => exact (lhs_first_1 _ _).trans hk)
  have er : dot_S384x24_S24x24_S384x24_1_0_0_1_n_n.rhsIdx (ix2 w q) ((contrEquiv1 dot_S384x24_S24x24_S384x24_1_0_0_1_n_n 24 rfl rfl).symm k) = ix2 k q :=
    funext fun a => Fin.ext (by
      match a with
      | ⟨0, _⟩ => exact (rhs_first_0 _ _).trans hk
      | ⟨1, _⟩ => exact rhs_first_1 _ _)
  rw [el, er]

/-! ## The second product: [384, 24] by [384, 24], the columns of both contracted -/

theorem lhs_second_0 (i : S384x384.Idx) (q : dot_S384x24_S384x24_S384x384_1_1_0_0_n_n.contr.Idx) :
    (dot_S384x24_S384x24_S384x384_1_1_0_0_n_n.lhsIdx i q 0).val = (i 0).val := by
  unfold DotDims.lhsIdx
  rw [dif_neg (show ¬(0 : Fin S384x24.rank) ∈ dot_S384x24_S384x24_S384x384_1_1_0_0_n_n.lhsBatch by decide),
    dif_pos (show (0 : Fin S384x24.rank) ∈ dot_S384x24_S384x24_S384x384_1_1_0_0_n_n.lhsNonContracting by decide)]
  rfl
theorem lhs_second_1 (i : S384x384.Idx) (q : dot_S384x24_S384x24_S384x384_1_1_0_0_n_n.contr.Idx) :
    (dot_S384x24_S384x24_S384x384_1_1_0_0_n_n.lhsIdx i q 1).val = (q ⟨0, by decide⟩).val :=
  dot_S384x24_S384x24_S384x384_1_1_0_0_n_n.lhsIdx_val_of_single rfl i q
theorem rhs_second_0 (i : S384x384.Idx) (q : dot_S384x24_S384x24_S384x384_1_1_0_0_n_n.contr.Idx) :
    (dot_S384x24_S384x24_S384x384_1_1_0_0_n_n.rhsIdx i q 0).val = (i 1).val := by
  unfold DotDims.rhsIdx
  rw [dif_neg (show ¬(0 : Fin S384x24.rank) ∈ dot_S384x24_S384x24_S384x384_1_1_0_0_n_n.rhsBatch by decide),
    dif_pos (show (0 : Fin S384x24.rank) ∈ dot_S384x24_S384x24_S384x384_1_1_0_0_n_n.rhsNonContracting by decide)]
  rfl
theorem rhs_second_1 (i : S384x384.Idx) (q : dot_S384x24_S384x24_S384x384_1_1_0_0_n_n.contr.Idx) :
    (dot_S384x24_S384x24_S384x384_1_1_0_0_n_n.rhsIdx i q 1).val = (q ⟨0, by decide⟩).val :=
  dot_S384x24_S384x24_S384x384_1_1_0_0_n_n.rhsIdx_val_of_single rfl i q

/-- Entry (h, w) of the second product: the sum over q of left (h, q) times right (w, q). -/
theorem second_product_apply (l r : FVec Ideal S384x24 .bf16) (h w : Fin 384) :
    FloatOps.matmul dot_S384x24_S384x24_S384x384_1_1_0_0_n_n none l r (constant (F := Ideal) S384x384 .f32 0x00000000#32) (ix2 h w)
      = ∑ q : Fin 24, l (ix2 h q) * r (ix2 w q) := by
  rw [Ideal.matmul_constant_zero_apply, ← Equiv.sum_comp (contrEquiv1 dot_S384x24_S384x24_S384x384_1_1_0_0_n_n 24 rfl rfl).symm]
  refine Finset.sum_congr rfl fun k _ => ?_
  have hk := contrEquiv1_symm_val dot_S384x24_S384x24_S384x384_1_1_0_0_n_n 24 rfl rfl k
  have el : dot_S384x24_S384x24_S384x384_1_1_0_0_n_n.lhsIdx (ix2 h w) ((contrEquiv1 dot_S384x24_S384x24_S384x384_1_1_0_0_n_n 24 rfl rfl).symm k) = ix2 h k :=
    funext fun a => Fin.ext (by
      match a with
      | ⟨0, _⟩ => exact lhs_second_0 _ _
      | ⟨1, _⟩ => exact (lhs_second_1 _ _).trans hk)
  have er : dot_S384x24_S384x24_S384x384_1_1_0_0_n_n.rhsIdx (ix2 h w) ((contrEquiv1 dot_S384x24_S384x24_S384x384_1_1_0_0_n_n 24 rfl rfl).symm k) = ix2 w k :=
    funext fun a => Fin.ext (by
      match a with
      | ⟨0, _⟩ => exact rhs_second_0 _ _
      | ⟨1, _⟩ => exact (rhs_second_1 _ _).trans hk)
  rw [el, er]

/-! ## The stored value -/

/-- With the selection matrix in its third operand, the body stores at (0, c, h, w) the pixel times the keep flag of the
    sample of the pixel's patch, column patch first. -/
theorem payload_apply (v0 : FVec Ideal S1x24x24 .f32) (v7 : FVec Ideal S384x24 .f32) (v13 : FVec Ideal S1x3x384x384 .f32)
    (hsel : ∀ (i : Fin 384) (j : Fin 24), v7 (ix2 i j) = if i.val / 16 = j.val then (1 : EReal) else 0)
    (c : Fin 3) (h w : Fin 384) :
    k0_pay1 (F := Ideal) v0 v7 v13 (ix4 (0 : Fin 1) c h w)
      = v13 (ix4 (0 : Fin 1) c h w) * keep half (v0 (ix3 (0 : Fin 1) (patch w) (patch h))) := by
  unfold k0_pay1
  rw [mulf_apply]
  refine congrArg (v13 (ix4 (0 : Fin 1) c h w) * ·) ?_
  rw [broadcastTo_apply _ Facts₀.broadcasts_S1x1x384x384_S1x3x384x384 (ix4 (0 : Fin 1) c h w)
      (ix4 (0 : Fin 1) (0 : Fin 1) h w) (fun a => match a with
      | ⟨0, _⟩ => by show 0 = if (1 : Nat) = 1 then 0 else 0; rw [if_pos rfl]
      | ⟨1, _⟩ => by show 0 = if (1 : Nat) = 1 then 0 else c.val; rw [if_pos rfl]
      | ⟨2, _⟩ => by show h.val = if (384 : Nat) = 1 then 0 else h.val; rw [if_neg (by decide)]
      | ⟨3, _⟩ => by show w.val = if (384 : Nat) = 1 then 0 else w.val; rw [if_neg (by decide)]),
    shapeCast_apply _ Facts₀.shapeCasts_S384x384_S1x1x384x384 (ix4 (0 : Fin 1) (0 : Fin 1) h w) (ix2 h w) (by
      rw [Shape.rowMajor_val_two, Shape.rowMajor_val_four]
      show h.val * 384 + w.val = ((0 * 1 + 0) * 384 + h.val) * 384 + w.val
      omega)]
  simp only [matmul]
  rw [second_product_apply]
  simp only [truncf_apply, shapeCast_self, first_product_apply, hsel, sitofp_apply, extui_apply, cmpf_apply,
    broadcast_apply, sitofp_extui_oge, shapeCast_1ab_ab_apply, sum_patchRow_mul]
  rfl

end Cert.Occlude

end
-- ==== Proof.PatchMatrix.lean ====
/-
  THE SELECTION MATRIX THE HOST BUILDS BEFORE THE KERNEL RUNS.

  The program computes, on the host and in integer words, the patch number of every pixel row — the floor division of
  the row number by 16, spelt out as the truncating quotient corrected by one when the signs differ and the remainder is
  not zero — and compares it with the column numbers 0 .. 23: entry (i, j) of the 384 x 24 matrix is the float 1 when
  i / 16 = j and 0 otherwise. For the 384 row numbers the corrected quotient is the plain quotient (checked row by row);
  the comparison of two words below 2^32 is the comparison of the numbers.
-/
import proofs.«179724_j64433099374846_1_alg».proof.Proof.Gen.KernelIdeal.Frame
import proofs.«179724_j64433099374846_1_alg».proof.Proof.Keep
import Idealize.ShloMosaic.Lib.StableHlo.Run
import Idealize.ShloMosaic.Lib.ValueIdx
import Idealize.ShloMosaic.Lib.Pipeline.Value
import Idealize.ShloMosaic.Lib.IdealHost

noncomputable section

namespace Cert.Occlude

open Cert.KernelIdeal Cert.KernelIdeal.Gen Idealize.ShloMosaic Idealize.ShloMosaic.TcCoe Idealize.SL.Sem
open Idealize.ShloMosaic.StableHlo Idealize.ShloMosaic.ValueIdx

/-- The patch number of every pixel row as the host computes it: the floor division of the row number by 16. -/
def rowPatch : IVec S384 32 :=
  select
    (andi
      (cmpi CmpIPredicate.ne (signi (iotaInDim S384 32 0))
        (broadcastInDim S384 ![] Facts₀.bcast_S_S384 (signi (constantI S_ 32 16#32))))
      (cmpi CmpIPredicate.ne
        (Host.remsi (iotaInDim S384 32 0) (broadcastInDim S384 ![] Facts₀.bcast_S_S384 (constantI S_ 32 16#32)))
        (broadcastInDim S384 ![] Facts₀.bcast_S_S384 (constantI S_ 32 0#32))))
    (subi (Host.divsi (iotaInDim S384 32 0) (broadcastInDim S384 ![] Facts₀.bcast_S_S384 (constantI S_ 32 16#32)))
      (broadcastInDim S384 ![] Facts₀.bcast_S_S384 (constantI S_ 32 1#32)))
    (Host.divsi (iotaInDim S384 32 0) (broadcastInDim S384 ![] Facts₀.bcast_S_S384 (constantI S_ 32 16#32)))

/-- For each of the 384 rows the host's floor division is the quotient of the row number by 16. -/
theorem rowPatch_apply : ∀ i : Fin 384, rowPatch (ix1 i) = BitVec.ofNat 32 (i.val / 16) := by
  decide +kernel

/-- The selection matrix, as the host's operations compose it. -/
def selMatrix : FVec Ideal S384x24 .f32 :=
  uitofp FTy.f32
    (cmpi CmpIPredicate.eq
      (broadcastInDim S384x24 ![0, 1] Facts₀.bcast_S384x1_S384x24_0_1
        (broadcastInDim S384x1 ![0] Facts₀.bcast_S384_S384x1_0 rowPatch))
      (broadcastInDim S384x24 ![0, 1] Facts₀.bcast_S1x24_S384x24_0_1
        (broadcastInDim S1x24 ![1] Facts₀.bcast_S24_S1x24_1 (iotaInDim S24 32 0))))

/-- Entry (i, j) of the selection matrix is 1 when row i lies in patch j, else 0. -/
theorem selMatrix_apply (i : Fin 384) (j : Fin 24) :
    selMatrix (ix2 i j) = if i.val / 16 = j.val then (1 : EReal) else 0 := by
  unfold selMatrix
  show FloatOps.uitofp (F := Ideal) .f32 (IntOp.cmpi .eq
      (broadcastInDim S384x24 ![0, 1] Facts₀.bcast_S384x1_S384x24_0_1
        (broadcastInDim S384x1 ![0] Facts₀.bcast_S384_S384x1_0 rowPatch) (ix2 i j))
      (broadcastInDim S384x24 ![0, 1] Facts₀.bcast_S1x24_S384x24_0_1
        (broadcastInDim S1x24 ![1] Facts₀.bcast_S24_S1x24_1 (iotaInDim S24 32 0)) (ix2 i j))) = _
  rw [broadcastInDim_apply _ Facts₀.bcast_S384x1_S384x24_0_1 _ (ix2 i j) (ix2 i (0 : Fin 1)) (fun a => match a with
      | ⟨0, _⟩ => by show i.val = if (384 : Nat) = 1 then 0 else i.val; rw [if_neg (by decide)]
      | ⟨1, _⟩ => by show 0 = if (1 : Nat) = 1 then 0 else j.val; rw [if_pos rfl]),
    broadcastInDim_apply _ Facts₀.bcast_S384_S384x1_0 rowPatch (ix2 i (0 : Fin 1)) (ix1 i) (fun a => match a with
      | ⟨0, _⟩ => by show i.val = if (384 : Nat) = 1 then 0 else i.val; rw [if_neg (by decide)]),
    broadcastInDim_apply _ Facts₀.bcast_S1x24_S384x24_0_1 _ (ix2 i j) (ix2 (0 : Fin 1) j) (fun a => match a with
      | ⟨0, _⟩ => by show 0 = if (1 : Nat) = 1 then 0 else i.val; rw [if_pos rfl]
      | ⟨1, _⟩ => by show j.val = if (24 : Nat) = 1 then 0 else j.val; rw [if_neg (by decide)]),
    broadcastInDim_apply _ Facts₀.bcast_S24_S1x24_1 (iotaInDim S24 32 0) (ix2 (0 : Fin 1) j) (ix1 j) (fun a => match a with
      | ⟨0, _⟩ => by show j.val = if (24 : Nat) = 1 then 0 else j.val; rw [if_neg (by decide)]),
    rowPatch_apply, iotaInDim_apply]
  show (((BitVec.ofBool (BitVec.ofNat 32 (i.val / 16) == BitVec.ofNat 32 j.val)).toNat : ℝ) : EReal) = _
  have hi : i.val / 16 < 2 ^ 32 := by have := i.isLt; omega
  have hj : j.val < 2 ^ 32 := by have := j.isLt; omega
  by_cases h : i.val / 16 = j.val
  · rw [if_pos h, h, beq_self_eq_true]; simp
  · have hne : BitVec.ofNat 32 (i.val / 16) ≠ BitVec.ofNat 32 j.val := fun e => h (by
      have := congrArg BitVec.toNat e
      rwa [BitVec.toNat_ofNat, BitVec.toNat_ofNat, Nat.mod_eq_of_lt hi, Nat.mod_eq_of_lt hj] at this)
    rw [if_neg h, (beq_eq_false_iff_ne).2 hne]; simp

variable (m : (ℓ : Loc nD τ sig) → Buf (Elt Ideal) ℓ)

/-- When the kernel is entered the third operand's array holds the selection matrix. -/
theorem entry_selMatrix (c : Dev nD) : (V m c main_v8 : S384x24.Idx → EReal) = selMatrix := by
  dsimp only [V]
  simp only [hostOps0, hostOps0_1, hostOps0_2, List.flatten_cons, List.flatten_nil, List.append_nil, List.cons_append,
    List.nil_append]
  after_results
  rfl

end Cert.Occlude

end
-- ==== Proof.KernelValue.lean ====
/-
  THE KERNEL'S RESULT ARRAY IS THE OCCLUDED IMAGE.

  Grid point t stages batch element t of the image and of the samples, the whole selection matrix, and writes back batch
  element t of the result. What it writes is, entry by entry, the pixel times the keep flag of its patch's sample (the
  body's stored value, read with the selection matrix the host built), which is block t of the occluded image of the
  whole arrays. The 64 blocks cover the result array — index (b, c, h, w) lies in block b — so the array ends holding
  the occluded image.
-/
import proofs.«179724_j64433099374846_1_alg».proof.Proof.Gen.KernelIdeal.Value
import proofs.«179724_j64433099374846_1_alg».proof.Proof.Payload
import proofs.«179724_j64433099374846_1_alg».proof.Proof.PatchMatrix
import Idealize.ShloMosaic.Lib.Pipeline.Value
import Idealize.ShloMosaic.Lib.Tactic

noncomputable section

namespace Cert.Occlude

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The batch element a grid point works on. -/
def batchOf (t : Fin cfg0.N) : Fin 64 := Fin.cast N_0 t

@[simp] theorem batchOf_val (t : Fin cfg0.N) : (batchOf t).val = t.val := rfl

/-- The printed index maps, decided over the grid: point t's blocks are batch element t of the image, of the samples
    and of the result, and the whole selection matrix. -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-- The image block at point t is batch element t of the image. -/
theorem image_block_apply (c : Dev nD) (t : Fin cfg0.N) (cc : Fin 3) (h w : Fin 384) :
    (iblk m c 0 t : Vec Ideal S1x3x384x384 .f32) (ix4 (0 : Fin 1) cc h w)
      = (V m c main_arg0 : S64x3x384x384.Idx → EReal) (ix4 (batchOf t) cc h w) := by
  obtain ⟨e0, e1, e2, e3, -⟩ := index_facts t
  unfold iblk
  rw [View.read_apply]
  show V m c main_arg0 _ = V m c main_arg0 _
  congr 1
  funext a
  apply Fin.ext
  match a with
  | ⟨0, _⟩ => show win0_0.index t (0 : Fin 4) * 1 + 1 * 0 = t.val; omega
  | ⟨1, _⟩ => show win0_0.index t (1 : Fin 4) * 3 + 1 * cc.val = cc.val; omega
  | ⟨2, _⟩ => show win0_0.index t (2 : Fin 4) * 384 + 1 * h.val = h.val; omega
  | ⟨3, _⟩ => show win0_0.index t (3 : Fin 4) * 384 + 1 * w.val = w.val; omega

/-- The sample block at point t is batch element t of the samples. -/
theorem sample_block_apply (c : Dev nD) (t : Fin cfg0.N) (p q : Fin 24) :
    (iblk m c 1 t : Vec Ideal S1x24x24 .f32) (ix3 (0 : Fin 1) p q)
      = (V m c main_arg1 : S64x24x24.Idx → EReal) (ix3 (batchOf t) p q) := by
  obtain ⟨-, -, -, -, e0, e1, e2, -⟩ := index_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 24 + 1 * p.val = p.val; omega
  | ⟨2, _⟩ => show win0_1.index t (2 : Fin 3) * 24 + 1 * q.val = q.val; omega

/-- The third operand's block at every point is the whole selection matrix. -/
theorem selection_block_apply (c : Dev nD) (t : Fin cfg0.N) (i : Fin 384) (j : Fin 24) :
    (iblk m c 2 t : Vec Ideal S384x24 .f32) (ix2 i j) = if i.val / 16 = j.val then (1 : EReal) else 0 := by
  obtain ⟨-, -, -, -, -, -, -, e0, e1, -⟩ := index_facts t
  rw [← selMatrix_apply i j, ← entry_selMatrix m c]
  unfold iblk
  rw [View.read_apply]
  show V m c main_v8 _ = V m c main_v8 _
  congr 1
  funext a
  apply Fin.ext
  match a with
  | ⟨0, _⟩ => show win0_2.index t (0 : Fin 2) * 384 + 1 * i.val = i.val; omega
  | ⟨1, _⟩ => show win0_2.index t (1 : Fin 2) * 24 + 1 * j.val = j.val; omega

/-- Entry (0, c, h, w) of the result's block at point t is array index (t, c, h, w). -/
theorem result_block_emb (t : Fin cfg0.N) (cc : Fin 3) (h w : Fin 384) :
    (((cfg0.win 3).blk t).view.emb (ix4 (0 : Fin 1) cc h w) : S64x3x384x384.Idx) = ix4 (batchOf t) cc h w := by
  obtain ⟨-, -, -, -, -, -, -, -, -, e0, e1, e2, e3⟩ := index_facts t
  funext a
  apply Fin.ext
  match a with
  | ⟨0, _⟩ => show win0_3.index t (0 : Fin 4) * 1 + 1 * 0 = t.val; omega
  | ⟨1, _⟩ => show win0_3.index t (1 : Fin 4) * 3 + 1 * cc.val = cc.val; omega
  | ⟨2, _⟩ => show win0_3.index t (2 : Fin 4) * 384 + 1 * h.val = h.val; omega
  | ⟨3, _⟩ => show win0_3.index t (3 : Fin 4) * 384 + 1 * w.val = w.val; omega

/-- What point t writes back is block t of the occluded image of the arrays as the kernel finds them. -/
theorem flushed_eq (c : Dev nD) (t : Fin cfg0.N) :
    (dats m 0 c).flushed 3 t
      = ((cfg0.win 3).blk t).view.read (Elt Ideal) (occluded half (V m c main_arg0) (V m c main_arg1)) := by
  rw [Cert.KernelIdeal.Value.flushed3]
  unfold out0_3
  rw [View.canon_unit_zero zero4]
  simp only [View.ld_unit_zero (S := S1x24x24) zero3, View.ld_unit_zero (S := S384x24) zero2,
    View.ld_unit_zero (S := S1x3x384x384) zero4]
  refine funext fun (j : S1x3x384x384.Idx) => ?_
  obtain ⟨u, cc, h, w, rfl⟩ : ∃ (u : Fin 1) (cc : Fin 3) (h w : Fin 384), j = ix4 u cc h w :=
    ⟨j 0, j 1, j 2, j 3, eq_ix4 j⟩
  obtain rfl : u = 0 := Subsingleton.elim _ _
  show k0_pay1 (F := Ideal) (iblk m c 1 t) (iblk m c 2 t) (iblk m c 0 t) (ix4 (0 : Fin 1) cc h w)
    = occluded half (V m c main_arg0) (V m c main_arg1) (((cfg0.win 3).blk t).view.emb (ix4 (0 : Fin 1) cc h w))
  rw [result_block_emb t cc h w, occluded_apply]
  refine (payload_apply (iblk m c 1 t) (iblk m c 2 t) (iblk m c 0 t) (selection_block_apply m c t) cc h w).trans ?_
  rw [image_block_apply m c t cc h w, sample_block_apply m c t (patch w) (patch h)]

/-- An index of the result array is in point t's block iff each coordinate is in the block's range on its axis. -/
theorem mem_block (t : Fin cfg0.N) (i : S64x3x384x384.Idx) :
    i ∈ ((cfg0.win 3).blk t).view.set ↔ ∀ a : Fin 4, win0_3.index t a * S1x3x384x384.size a ≤ (i a).val
      ∧ (i a).val < win0_3.index t a * S1x3x384x384.size a + S1x3x384x384.size a := by
  show i ∈ ((View.whole main_v9).slice (win0_3.rect t)).set ↔ _
  rw [View.set_slice_whole, Rect.mem_set_unit]
  exact Iff.rfl

/-- Every index of the result array lies in the block of its batch element's point. -/
theorem covered (i : S64x3x384x384.Idx) :
    ∃ t : Fin cfg0.N, (cfg0.win 3).flush t = true ∧ i ∈ ((cfg0.win 3).blk t).view.set := by
  have h0 : (i 0).val < 64 := (i 0).isLt
  have h1 : (i 1).val < 3 := (i 1).isLt
  have h2 : (i 2).val < 384 := (i 2).isLt
  have h3 : (i 3).val < 384 := (i 3).isLt
  let t : Fin cfg0.N := Fin.cast N_0.symm ⟨(i 0).val, h0⟩
  have ht : t.val = (i 0).val := rfl
  obtain ⟨-, -, -, -, -, -, -, -, -, e0, e1, e2, e3⟩ := index_facts t
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 384 ≤ (i 2).val ∧ (i 2).val < win0_3.index t (2 : Fin 4) * 384 + 384; omega
  | ⟨3, _⟩ => show win0_3.index t (3 : Fin 4) * 384 ≤ (i 3).val ∧ (i 3).val < win0_3.index t (3 : Fin 4) * 384 + 384; omega

/-- The result array after the run: the occluded image of the argument arrays. -/
theorem final (c : Dev nD) :
    (dats m 0 c).arrAt 3 cfg0.N
      = occluded half (m ((c : Thread nD τ).loc main_arg0)) (m ((c : Thread nD τ).loc main_arg1)) := by
  rw [(dats m 0 c).arrAt_eq_of_cover 3 (occluded half (V m c main_arg0) (V m c main_arg1))
    (fun t _ => flushed_eq m c t) covered, V_main_arg0, V_main_arg1]

/-- The kernel's run, read: the result array at the occluded image of the arguments, the arguments unchanged. -/
theorem run : θ_run defs (onTc (τ := τ) (main (F := Ideal))) ⟨m, fun _ => 0, ρ⟩ fun r => ∀ c : Dev nD,
      r.2.mem ((c : Thread nD τ).loc main_v9)
        = occluded half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Occlude

end
-- ==== Proof.RefValue.lean ====
/-
  THE REFERENCE COMPUTES THE OCCLUDED IMAGE.

  The reference views the image as [64, 3, 24, 16, 24, 16] — pixel (h, w) is entry (h / 16, h % 16, w / 16, w % 16) of its
  batch and channel, the two views having the same row-major position —, multiplies by the keep flags transposed to
  [batch, row patch, column patch] and broadcast along the channel and the two in-patch axes, and views the product as
  an image again. Read at a pixel: x[b, c, h, w] times the keep flag of the sample u[b, w / 16, h / 16].
-/
import proofs.«179724_j64433099374846_1_alg».proof.Proof.Gen.ReferenceIdeal.Read
import proofs.«179724_j64433099374846_1_alg».proof.Proof.Keep
import Idealize.ShloMosaic.Lib.ValueIdx
import Idealize.ShloMosaic.Lib.ValueIdxRank6
import Idealize.ShloMosaic.Lib.Pipeline.Value

noncomputable section

namespace Cert.Occlude

open Cert.ReferenceIdeal Cert.ReferenceIdeal.Read Idealize.ShloMosaic Idealize.ShloMosaic.ValueIdx

/-- The position inside its patch of a pixel row (or column). -/
def inPatch (a : Fin 384) : Fin 16 := ⟨a.val % 16, Nat.mod_lt _ (by decide)⟩

/-- Pixel (h, w) of the image and entry (h / 16, h % 16, w / 16, w % 16) of the patch view have one row-major position. -/
theorem position_eq (b : Fin 64) (c : Fin 3) (h w : Fin 384) :
    (S64x3x24x16x24x16.rowMajor (ix6 b c (patch h) (inPatch h) (patch w) (inPatch w))).val
      = (S64x3x384x384.rowMajor (ix4 b c h w)).val := by
  rw [Shape.rowMajor_val_six, Shape.rowMajor_val_four]
  show (((((b.val * 3 + c.val) * 24 + h.val / 16) * 16 + h.val % 16) * 24 + w.val / 16) * 16 + w.val % 16)
    = ((b.val * 3 + c.val) * 384 + h.val) * 384 + w.val
  omega

/-- The reference's result is the occluded image. -/
theorem reference_eq (x0 : FVec Ideal S64x3x384x384 .f32) (x1 : FVec Ideal S64x24x24 .f32) :
    val_main_v8 (F := Ideal) x0 x1 = occluded half x0 x1 := by
  funext i
  obtain ⟨b, c, h, w, rfl⟩ : ∃ (b : Fin 64) (c : Fin 3) (h w : Fin 384), i = ix4 b c h w :=
    ⟨i 0, i 1, i 2, i 3, eq_ix4 i⟩
  rw [occluded_apply]
  unfold val_main_v8
  rw [shapeCast_apply _ Facts₀.shapeCasts_S64x3x24x16x24x16_S64x3x384x384 (ix4 b c h w)
      (ix6 b c (patch h) (inPatch h) (patch w) (inPatch w)) (position_eq b c h w),
    val_main_v7_apply]
  have e5 : val_main_v5 (F := Ideal) x0 (ix6 b c (patch h) (inPatch h) (patch w) (inPatch w)) = x0 (ix4 b c h w) := by
    unfold val_main_v5
    exact shapeCast_apply _ Facts₀.shapeCasts_S64x3x384x384_S64x3x24x16x24x16 _ (ix4 b c h w) (position_eq b c h w).symm
  have eidx : idx_main_v3 (idx_main_v4 (idx_main_v6 (ix6 b c (patch h) (inPatch h) (patch w) (inPatch w))))
      = ix3 b (patch w) (patch h) :=
    funext fun a => Fin.ext (by match a with | ⟨0, _⟩ => rfl | ⟨1, _⟩ => rfl | ⟨2, _⟩ => rfl)
  rw [e5, val_main_v6_apply, val_main_v4_apply, val_main_v3_apply, val_main_v2_apply, val_main_v1_apply,
    val_main_v0_apply, val_main_cst_apply, eidx]
  exact congrArg (x0 (ix4 b c h w) * ·) (uitofp_oge _ _)

end Cert.Occlude

end
-- ==== Proof.lean ====
/-
  PATCH OCCLUSION: THE KERNEL AND THE REFERENCE COMPUTE ONE IMAGE.

  A batch of 64 images x[b, c, h, w] (3 channels, 384 x 384 pixels) is cut into 24 x 24 patches of 16 x 16 pixels, and a
  sample u[b, p, q] is drawn per patch (column patch p first). A patch is kept when its sample is at least one half and
  zeroed otherwise:

      y[b, c, h, w] = x[b, c, h, w] * keep (u[b, w / 16, h / 16]),    keep z = 1 if 1/2 ≤ z, else 0.

  The reference views the image as [64, 3, 24, 16, 24, 16], multiplies by the transposed keep flags broadcast along the
  channel and the in-patch axes, and views the product as an image again. The kernel works one batch element per grid
  point: from the selection matrix E[i, j] = [i / 16 = j], which the host builds in integer arithmetic before the launch,
  and the keep flags K of the point's samples it forms E K and then E (E K)ᵀ on the matrix unit — a row of E has a single
  one, so these sums are the selected entries, M[h, w] = K[w / 16, h / 16] — and stores x * M. On the extended reals
  1 * z = z and 0 * z = 0 for every z, so no finiteness of the inputs is used: the two results are the same function of
  the arguments, index by index.

  The three frames are the generated ones (the reference's is its run with the result dropped); no operation was
  rewritten between the kernel and its idealization, so that claim is trivial.
-/
import proofs.«179724_j64433099374846_1_alg».proof.Defs
import proofs.«179724_j64433099374846_1_alg».proof.Proof.Gen.Kernel
import proofs.«179724_j64433099374846_1_alg».proof.Proof.Gen.Kernel.Skeleton
import proofs.«179724_j64433099374846_1_alg».proof.Proof.Gen.Kernel.Launch
import proofs.«179724_j64433099374846_1_alg».proof.Proof.Gen.Kernel.Points
import proofs.«179724_j64433099374846_1_alg».proof.Proof.Gen.Kernel.Frame
import proofs.«179724_j64433099374846_1_alg».proof.Proof.Gen.KernelIdeal
import proofs.«179724_j64433099374846_1_alg».proof.Proof.Gen.KernelIdeal.Skeleton
import proofs.«179724_j64433099374846_1_alg».proof.Proof.Gen.KernelIdeal.Launch
import proofs.«179724_j64433099374846_1_alg».proof.Proof.Gen.KernelIdeal.Points
import proofs.«179724_j64433099374846_1_alg».proof.Proof.Gen.KernelIdeal.Frame
import proofs.«179724_j64433099374846_1_alg».proof.Proof.Gen.ReferenceIdeal
import proofs.«179724_j64433099374846_1_alg».proof.Proof.Gen.KernelIdeal.Value
import proofs.«179724_j64433099374846_1_alg».proof.Proof.Gen.ReferenceIdeal.Run
import proofs.«179724_j64433099374846_1_alg».proof.Proof.Gen.ReferenceIdeal.Read
import proofs.«179724_j64433099374846_1_alg».proof.Proof.Gen.Pre_finite_inputs
import proofs.«179724_j64433099374846_1_alg».proof.Proof.KernelValue
import proofs.«179724_j64433099374846_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the occluded image of the arguments in their result arrays. -/
theorem algebraic : Cert.algebraic_KernelIdeal_ReferenceIdeal := by
  intro m ρ m' ρ' _ hagree
  refine ⟨fun c => Cert.Occlude.occluded Cert.Occlude.half
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Occlude.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Occlude.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
